-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x1024x4096 : Shape := ⟨3, ![8, 1024, 4096]⟩
abbrev S8x4096x1024 : Shape := ⟨3, ![8, 4096, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x1024x4096 : S_.BroadcastsInDim S8x1024x4096 (![] : Fin 0 → Fin S8x1024x4096.rank)
  reducesTo_S8x1024x4096_S_d0_1_2 : S8x1024x4096.ReducesTo [0, 1, 2] S_
  bcast_S_S8x4096x1024 : S_.BroadcastsInDim S8x4096x1024 (![] : Fin 0 → Fin S8x4096x1024.rank)
  reducesTo_S8x4096x1024_S_d0_1_2 : S8x4096x1024.ReducesTo [0, 1, 2] S_

variable [Facts]

def fn {F : FTy → Type} [FloatOps F] (main_arg0 : FVec F S8x2048x1024 .f32) (main_arg1 : FVec F S8x1024x4096 .f32) (main_arg2 : FVec F S8x4096x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x1024x4096 .f32 := Host.absf main_arg1
  let main_cst_0 : FVec F S_ .f32 := constant S_ .f32 0x7F800000#32
  let main_v5 : FVec F S8x1024x4096 .f32 := broadcastInDim S8x1024x4096 ![] bcast_S_S8x1024x4096 main_cst_0
  let main_v6 : IVec S8x1024x4096 1 := cmpf .olt main_v4 main_v5
  let main_c_1 : IVec S_ 1 := constantI S_ 1 1#1
  let main_v7 : IVec S_ 1 := (fun x v => Host.reduce IntOp.andi x v reducesTo_S8x1024x4096_S_d0_1_2 h_S_) main_v6 main_c_1
  let main_v8 : IVec S_ 1 := andi main_v3 main_v7
  let main_v9 : FVec F S8x4096x1024 .f32 := Host.absf main_arg2
  let main_cst_2 : FVec F S_ .f32 := constant S_ .f32 0x7F800000#32
  let main_v10 : FVec F S8x4096x1024 .f32 := broadcastInDim S8x4096x1024 ![] bcast_S_S8x4096x1024 main_cst_2
  let main_v11 : IVec S8x4096x1024 1 := cmpf .olt main_v9 main_v10
  let main_c_3 : IVec S_ 1 := constantI S_ 1 1#1
  let main_v12 : IVec S_ 1 := (fun x v => Host.reduce IntOp.andi x v reducesTo_S8x4096x1024_S_d0_1_2 h_S_) main_v11 main_c_3
  let main_v13 : IVec S_ 1 := andi main_v8 main_v12
  main_v13
-- ==== Kernel.lean ====
abbrev S8x2048x1024 : Shape := ⟨3, ![8, 2048, 1024]⟩
abbrev S8x1024x4096 : Shape := ⟨3, ![8, 1024, 4096]⟩
abbrev S8x4096x1024 : Shape := ⟨3, ![8, 4096, 1024]⟩
abbrev S1x256x1024 : Shape := ⟨3, ![1, 256, 1024]⟩
abbrev S1x1024x4096 : Shape := ⟨3, ![1, 1024, 4096]⟩
abbrev S1x4096x1024 : Shape := ⟨3, ![1, 4096, 1024]⟩
abbrev S256x1024 : Shape := ⟨2, ![256, 1024]⟩
abbrev S1024x4096 : Shape := ⟨2, ![1024, 4096]⟩
abbrev S4096x1024 : Shape := ⟨2, ![4096, 1024]⟩
abbrev S256x4096 : Shape := ⟨2, ![256, 4096]⟩

abbrev nBuf : Space → Nat
  | .hbm => 7
  | .vmem => 6
  | .smem => 0
  | _ => 0

abbrev bufTy : (tb : Table) → Fin (tcTables nBuf tb) → BufTy
  | .hbm, ⟨0, _⟩ => ⟨S8x2048x1024, .f32⟩
  | .hbm, ⟨1, _⟩ => ⟨S8x1024x4096, .f32⟩
  | .hbm, ⟨2, _⟩ => ⟨S8x4096x1024, .f32⟩
  | .hbm, ⟨3, _⟩ => ⟨S8x2048x1024, .bf16⟩
  | .hbm, ⟨4, _⟩ => ⟨S8x1024x4096, .bf16⟩
  | .hbm, ⟨5, _⟩ => ⟨S8x4096x1024, .bf16⟩
  | .hbm, ⟨6, _⟩ => ⟨S8x2048x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x1024x4096, .bf16⟩
  | .local _ .vmem, ⟨3, _⟩ => ⟨S1x4096x1024, .bf16⟩
  | .local _ .vmem, ⟨4, _⟩ => ⟨S1x256x1024, .f32⟩
  | .local _ .vmem, ⟨5, _⟩ => ⟨S1x256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x1024x4096_S1x1024x4096_0_0_0 : ∀ a, (![0, 0, 0] : Fin 3 → Nat) a + S1x1024x4096.size a ≤ S1x1024x4096.size a
  h_S1x1024x4096 : 0 < S1x1024x4096.numel
  shapeCasts_S1x1024x4096_S1024x4096 : S1x1024x4096.ShapeCasts S1024x4096
  inb_S1x4096x1024_S1x4096x1024_0_0_0 : ∀ a, (![0, 0, 0] : Fin 3 → Nat) a + S1x4096x1024.size a ≤ S1x4096x1024.size a
  h_S1x4096x1024 : 0 < S1x4096x1024.numel
  shapeCasts_S1x4096x1024_S4096x1024 : S1x4096x1024.ShapeCasts S4096x1024
  shapeCasts_S256x1024_S1x256x1024 : S256x1024.ShapeCasts S1x256x1024
  dot_S256x1024_S1024x4096_S256x4096_1_0_0_1_n_n_wf : DotDims.WF S256x1024 S1024x4096 S256x4096 [1] [0] [0] [1] [] []
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S8x2048x1024.size a
  hwx0_0 : ∀ i : grid0.Coords, EltTy.bits .bf16 = 32 ∨ (Rect.block (s := S8x2048x1024) S1x256x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024x4096.size a ≤ S8x1024x4096.size a
  hwx0_1 : ∀ i : grid0.Coords, EltTy.bits .bf16 = 32 ∨ (Rect.block (s := S8x1024x4096) S1x1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096x1024.size a ≤ S8x4096x1024.size a
  hwx0_2 : ∀ i : grid0.Coords, EltTy.bits .bf16 = 32 ∨ (Rect.block (s := S8x4096x1024) S1x4096x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S8x2048x1024.size a
  hwx0_3 : ∀ i : grid0.Coords, EltTy.bits .f32 = 32 ∨ (Rect.block (s := S8x2048x1024) S1x256x1024.size (cc0_transform_3 i) (hinb0_3 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_call0_v0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S1x1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1x4096x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S8x1024x4096 : Shape := ⟨3, ![8, 1024, 4096]⟩
abbrev S8x4096x1024 : Shape := ⟨3, ![8, 4096, 1024]⟩
abbrev S8x2048x4096 : Shape := ⟨3, ![8, 2048, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1024x4096, .f32⟩
  | .hbm, ⟨2, _⟩ => ⟨S8x4096x1024, .f32⟩
  | .hbm, ⟨3, _⟩ => ⟨S8x2048x4096, .f32⟩
  | .hbm, ⟨4, _⟩ => ⟨S_, .f32⟩
  | .hbm, ⟨5, _⟩ => ⟨S8x2048x4096, .f32⟩
  | .hbm, ⟨6, _⟩ => ⟨S8x2048x4096, .f32⟩
  | .hbm, ⟨7, _⟩ => ⟨S_, .f32⟩
  | .hbm, ⟨8, _⟩ => ⟨S8x2048x4096, .f32⟩
  | .hbm, ⟨9, _⟩ => ⟨S8x2048x4096, .f32⟩
  | .hbm, ⟨10, _⟩ => ⟨S8x2048x4096, .f32⟩
  | .hbm, ⟨11, _⟩ => ⟨S8x2048x4096, .f32⟩
  | .hbm, ⟨12, _⟩ => ⟨S8x2048x4096, .f32⟩
  | .hbm, ⟨13, _⟩ => ⟨S_, .f32⟩
  | .hbm, ⟨14, _⟩ => ⟨S8x2048x4096, .f32⟩
  | .hbm, ⟨15, _⟩ => ⟨S8x2048x4096, .f32⟩
  | .hbm, ⟨16, _⟩ => ⟨S8x2048x4096, .f32⟩
  | .hbm, ⟨17, _⟩ => ⟨S_, .f32⟩
  | .hbm, ⟨18, _⟩ => ⟨S8x2048x4096, .f32⟩
  | .hbm, ⟨19, _⟩ => ⟨S8x2048x4096, .f32⟩
  | .hbm, ⟨20, _⟩ => ⟨S8x2048x4096, .f32⟩
  | .hbm, ⟨21, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S8x2048x4096 : S_.BroadcastsInDim S8x2048x4096 (![] : Fin 0 → Fin S8x2048x4096.rank)
  dot_S8x2048x1024_S8x1024x4096_S8x2048x4096_2_1_1_2_0_0_wf : DotDims.WF S8x2048x1024 S8x1024x4096 S8x2048x4096 [2] [1] [1] [2] [0] [0]
  dot_S8x2048x4096_S8x4096x1024_S8x2048x1024_2_1_1_2_0_0_wf : DotDims.WF S8x2048x4096 S8x4096x1024 S8x2048x1024 [2] [1] [1] [2] [0] [0]

variable [Facts₀]

def dot_S8x2048x1024_S8x1024x4096_S8x2048x4096_2_1_1_2_0_0 : DotDims S8x2048x1024 S8x1024x4096 S8x2048x4096 where
  lhsContracting := [2]
  rhsContracting := [1]
  lhsNonContracting := [1]
  rhsNonContracting := [2]
  lhsBatch := [0]
  rhsBatch := [0]
  wf := dot_S8x2048x1024_S8x1024x4096_S8x2048x4096_2_1_1_2_0_0_wf
def dot_S8x2048x4096_S8x4096x1024_S8x2048x1024_2_1_1_2_0_0 : DotDims S8x2048x4096 S8x4096x1024 S8x2048x1024 where
  lhsContracting := [2]
  rhsContracting := [1]
  lhsNonContracting := [1]
  rhsNonContracting := [2]
  lhsBatch := [0]
  rhsBatch := [0]
  wf := dot_S8x2048x4096_S8x4096x1024_S8x2048x1024_2_1_1_2_0_0_wf

class Facts : Prop extends Facts₀ where

variable [Facts]
-- ==== Proof.Spec.lean ====
/-
  The function both programs compute, stated once over the argument arrays.

  For a batch index e, a row t and a column j, with x : [8, 2048, 1024], w1 : [8, 1024, 4096], w2 : [8, 4096, 1024]:

    hiddenAt e t f = Σ_k x[e, t, k] · w1[e, k, f]                      (k < 1024)
    act h        = (a · h) · (one + tanh (c · (h + ((b · h) · h) · h)))  -- the tanh form of GELU
    mlp  e t j   = Σ_f act (hiddenAt e t f) · w2[e, f, j]              (f < 4096)

  The four scalars a, b, c, one are kept as the printed binary32 words (0.5, 0.044715, 0.7978846, 1.0 rounded
  to binary32): both programs carry the same words, so their values are never needed.  Everything is on the
  extended reals; sums and products are taken in the order written, and no law beyond the reindexing of a sum
  over one contraction axis is used anywhere, so no finiteness of the inputs is needed.
-/
import Idealize.ShloMosaic.PureOps.Ideal
import Idealize.ShloMosaic.PureOps.Ideal.Laws
import Idealize.ShloMosaic.Lib.ValueIdx

noncomputable section

open scoped BigOperators

namespace Cert.MlpSpec

open Idealize.ShloMosaic Idealize.ShloMosaic.ValueIdx

/-- The three argument shapes and the hidden layer's. -/
abbrev SX : Shape := ⟨3, ![8, 2048, 1024]⟩
abbrev SW1 : Shape := ⟨3, ![8, 1024, 4096]⟩
abbrev SW2 : Shape := ⟨3, ![8, 4096, 1024]⟩
abbrev SH : Shape := ⟨3, ![8, 2048, 4096]⟩

/-- The four scalars of the activation, as the extended reals their binary32 words denote. -/
abbrev cHalf : EReal := Ideal.ofBits .f32 0x3F000000#32
abbrev cCube : EReal := Ideal.ofBits .f32 0x3D372713#32
abbrev cScale : EReal := Ideal.ofBits .f32 0x3F4C422A#32
abbrev cOne : EReal := Ideal.ofBits .f32 0x3F800000#32

/-- The tanh form of GELU at one extended real, products and sums grouped as both programs group them. -/
def act (h : EReal) : EReal :=
  (cHalf * h) * (cOne + Ideal.tanh (cScale * (h + ((cCube * h) * h) * h)))

/-- The hidden layer before the activation: row t of x[e] against column f of w1[e]. -/
def hiddenAt (x : SX.Idx → EReal) (w1 : SW1.Idx → EReal) (e : Fin 8) (t : Fin 2048) (f : Fin 4096) : EReal :=
  ∑ k : Fin 1024, x (ix3 e t k) * w1 (ix3 e k f)

/-- The result: the activated hidden row against column j of w2[e]. -/
def mlp (x : SX.Idx → EReal) (w1 : SW1.Idx → EReal) (w2 : SW2.Idx → EReal) : SX.Idx → EReal :=
  fun i => ∑ f : Fin 4096, act (hiddenAt x w1 (i 0) (i 1) f) * w2 (ix3 (i 0) f (i 2))

theorem mlp_ix3 (x : SX.Idx → EReal) (w1 : SW1.Idx → EReal) (w2 : SW2.Idx → EReal) (e : Fin 8) (t : Fin 2048) (j : Fin 1024) :
    mlp x w1 w2 (ix3 e t j) = ∑ f : Fin 4096, act (hiddenAt x w1 e t f) * w2 (ix3 e f j) := rfl

end Cert.MlpSpec

end
-- ==== Proof.RefValue.lean ====
/-
  The reference's result is `mlp` of its three arguments.

  The reference is two batched products with the activation between them.  Read at an index (e, t, j), its last product
  is the sum over f < 4096 of the activated hidden entry (e, t, f) times w2[e, f, j]; the activated entry is, operation by
  operation, `act` of the first product's entry; and the first product's entry (e, t, f) is the sum over k < 1024 of
  x[e, t, k] · w1[e, k, f].  These are the defining sums of `mlp`, term for term and in the same order.
-/
import proofs.«167670_j45002667327743_1_alg».proof.Proof.Gen.ReferenceIdeal.Read
import proofs.«167670_j45002667327743_1_alg».proof.Proof.Spec

noncomputable section

open scoped BigOperators

namespace Cert.ReferenceIdeal.RefValue

open Cert.ReferenceIdeal Cert.ReferenceIdeal.Read Idealize.ShloMosaic Idealize.ShloMosaic.ValueIdx Cert.MlpSpec

/-- The operand indices of the first product at (e, t, f) and k are (e, t, k) and (e, k, f). -/
theorem lidx_hidden (i : S8x2048x4096.Idx) (k : Fin 1024) : lidx_main_v0 i k = ix3 (i 0) (i 1) k :=
  funext fun a => Fin.ext (by match a with | ⟨0, _⟩ => rfl | ⟨1, _⟩ => rfl | ⟨2, _⟩ => rfl)
theorem ridx_hidden (i : S8x2048x4096.Idx) (k : Fin 1024) : ridx_main_v0 i k = ix3 (i 0) k (i 2) :=
  funext fun a => Fin.ext (by match a with | ⟨0, _⟩ => rfl | ⟨1, _⟩ => rfl | ⟨2, _⟩ => rfl)
/-- The operand indices of the second product at (e, t, j) and f are (e, t, f) and (e, f, j). -/
theorem lidx_out (i : S8x2048x1024.Idx) (f : Fin 4096) : lidx_main_v14 i f = ix3 (i 0) (i 1) f :=
  funext fun a => Fin.ext (by match a with | ⟨0, _⟩ => rfl | ⟨1, _⟩ => rfl | ⟨2, _⟩ => rfl)
theorem ridx_out (i : S8x2048x1024.Idx) (f : Fin 4096) : ridx_main_v14 i f = ix3 (i 0) f (i 2) :=
  funext fun a => Fin.ext (by match a with | ⟨0, _⟩ => rfl | ⟨1, _⟩ => rfl | ⟨2, _⟩ => rfl)

/-- The first product's entry (e, t, f) is the hidden entry. -/
theorem hidden_eq (x : SX.Idx → EReal) (w1 : SW1.Idx → EReal) (i : S8x2048x4096.Idx) :
    val_main_v0 (F := Ideal) x w1 i = hiddenAt x w1 (i 0) (i 1) (i 2) := by
  rw [val_main_v0_apply]
  unfold hiddenAt
  refine Finset.sum_congr rfl fun k _ => ?_
  rw [lidx_hidden, ridx_hidden]
  rfl

/-- The activated entry: the nine pointwise operations after the first product, at one index, are `act` of its entry. -/
theorem act_eq (x : SX.Idx → EReal) (w1 : SW1.Idx → EReal) (i : S8x2048x4096.Idx) :
    val_main_v13 (F := Ideal) x w1 i = act (hiddenAt x w1 (i 0) (i 1) (i 2)) := by
  rw [val_main_v13_apply, val_main_v2_apply, val_main_v12_apply, val_main_v10_apply, val_main_v9_apply, val_main_v7_apply,
    val_main_v6_apply, val_main_v5_apply, val_main_v4_apply, val_main_v1_apply, val_main_v3_apply, val_main_v8_apply,
    val_main_v11_apply, val_main_cst_apply, val_main_cst_0_apply, val_main_cst_1_apply, val_main_cst_2_apply, hidden_eq]
  rfl

/-- The reference's result term is `mlp` of the arguments. -/
theorem result_eq (x : SX.Idx → EReal) (w1 : SW1.Idx → EReal) (w2 : SW2.Idx → EReal) :
    val_main_v14 (F := Ideal) x w1 w2 = mlp x w1 w2 := by
  funext i
  rw [val_main_v14_apply]
  unfold mlp
  refine Finset.sum_congr rfl fun f _ => ?_
  rw [act_eq, lidx_out, ridx_out]
  rfl

end Cert.ReferenceIdeal.RefValue

end
-- ==== Proof.Payload.lean ====
/-
  The kernel body's stored value, read at one index of the output block.

  At a grid point the body holds three blocks: a [1, 256, 1024] block xb of x, and the whole [1, 1024, 4096] and
  [1, 4096, 1024] slices w1b, w2b of the two weight arrays for one batch index.  It drops the unit axis, multiplies
  xb by w1b into a zero accumulator, applies the activation entry by entry, multiplies by w2b into a zero accumulator,
  and restores the unit axis.  A product into a zero accumulator is, at (r, c), the plain sum over the contraction
  coordinate; a change of float format is the identity on the extended reals.  So the stored value at (0, r, j) is

    Σ_f act (Σ_k xb[0, r, k] · w1b[0, k, f]) · w2b[0, f, j].
-/
import proofs.«167670_j45002667327743_1_alg».proof.Proof.Gen.KernelIdeal.Skeleton
import proofs.«167670_j45002667327743_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.MlpSpec

/-! ## The two products' operand indices, axis by axis

Both products contract the left operand's axis 1 with the right operand's axis 0 and have no batch axis: at output
index (r, c) and contraction coordinate k the operands are read at (r, k) and (k, c). -/

theorem lhsA_0 (i : S256x4096.Idx) (q : dot_S256x1024_S1024x4096_S256x4096_1_0_0_1_n_n.contr.Idx) :
    (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl
theorem lhsA_1 (i : S256x4096.Idx) (q : dot_S256x1024_S1024x4096_S256x4096_1_0_0_1_n_n.contr.Idx) :
    (dot_S256x1024_S1024x4096_S256x4096_1_0_0_1_n_n.lhsIdx i q 1).val = (q ⟨0, by decide⟩).val :=
  dot_S256x1024_S1024x4096_S256x4096_1_0_0_1_n_n.lhsIdx_val_of_single rfl i q
theorem rhsA_0 (i : S256x4096.Idx) (q : dot_S256x1024_S1024x4096_S256x4096_1_0_0_1_n_n.contr.Idx) :
    (dot_S256x1024_S1024x4096_S256x4096_1_0_0_1_n_n.rhsIdx i q 0).val = (q ⟨0, by decide⟩).val :=
  dot_S256x1024_S1024x4096_S256x4096_1_0_0_1_n_n.rhsIdx_val_of_single rfl i q
theorem rhsA_1 (i : S256x4096.Idx) (q : dot_S256x1024_S1024x4096_S256x4096_1_0_0_1_n_n.contr.Idx) :
    (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

theorem lhsB_0 (i : S256x1024.Idx) (q : dot_S256x4096_S4096x1024_S256x1024_1_0_0_1_n_n.contr.Idx) :
    (dot_S256x4096_S4096x1024_S256x1024_1_0_0_1_n_n.lhsIdx i q 0).val = (i 0).val := by
  unfold DotDims.lhsIdx
  rw [dif_neg (show ¬(0 : Fin S256x4096.rank) ∈ dot_S256x4096_S4096x1024_S256x1024_1_0_0_1_n_n.lhsBatch by decide), dif_pos (show (0 : Fin S256x4096.rank) ∈ dot_S256x4096_S4096x1024_S256x1024_1_0_0_1_n_n.lhsNonContracting by decide)]
  rfl
theorem lhsB_1 (i : S256x1024.Idx) (q : dot_S256x4096_S4096x1024_S256x1024_1_0_0_1_n_n.contr.Idx) :
    (dot_S256x4096_S4096x1024_S256x1024_1_0_0_1_n_n.lhsIdx i q 1).val = (q ⟨0, by decide⟩).val :=
  dot_S256x4096_S4096x1024_S256x1024_1_0_0_1_n_n.lhsIdx_val_of_single rfl i q
theorem rhsB_0 (i : S256x1024.Idx) (q : dot_S256x4096_S4096x1024_S256x1024_1_0_0_1_n_n.contr.Idx) :
    (dot_S256x4096_S4096x1024_S256x1024_1_0_0_1_n_n.rhsIdx i q 0).val = (q ⟨0, by decide⟩).val :=
  dot_S256x4096_S4096x1024_S256x1024_1_0_0_1_n_n.rhsIdx_val_of_single rfl i q
theorem rhsB_1 (i : S256x1024.Idx) (q : dot_S256x4096_S4096x1024_S256x1024_1_0_0_1_n_n.contr.Idx) :
    (dot_S256x4096_S4096x1024_S256x1024_1_0_0_1_n_n.rhsIdx i q 1).val = (i 1).val := by
  unfold DotDims.rhsIdx
  rw [dif_neg (show ¬(1 : Fin S4096x1024.rank) ∈ dot_S256x4096_S4096x1024_S256x1024_1_0_0_1_n_n.rhsBatch by decide), dif_pos (show (1 : Fin S4096x1024.rank) ∈ dot_S256x4096_S4096x1024_S256x1024_1_0_0_1_n_n.rhsNonContracting by decide)]
  rfl

/-! ## Each product at an index -/

/-- The first product into a zero accumulator at (r, f): the sum over k < 1024 of a[r, k] · b[k, f]. -/
theorem hidden_apply {φ₁ φ₂ : FTy} (a : FVec Ideal S256x1024 φ₁) (b : FVec Ideal S1024x4096 φ₂) (r : Fin 256) (c : Fin 4096) :
    matmul dot_S256x1024_S1024x4096_S256x4096_1_0_0_1_n_n none a b (constant (F := Ideal) S256x4096 .f32 0x00000000#32) (ix2 r c) = ∑ k : Fin 1024, a (ix2 r k) * b (ix2 k c) := by
  simp only [matmul]
  rw [Ideal.matmul_constant_zero_apply, ← Equiv.sum_comp (contrEquiv1 dot_S256x1024_S1024x4096_S256x4096_1_0_0_1_n_n 1024 rfl rfl).symm]
  refine Finset.sum_congr rfl fun k _ => ?_
  have hk := contrEquiv1_symm_val dot_S256x1024_S1024x4096_S256x4096_1_0_0_1_n_n 1024 rfl rfl k
  have el : dot_S256x1024_S1024x4096_S256x4096_1_0_0_1_n_n.lhsIdx (ix2 r c) ((contrEquiv1 dot_S256x1024_S1024x4096_S256x4096_1_0_0_1_n_n 1024 rfl rfl).symm k) = ix2 r k := funext fun x => Fin.ext (by
    match x with
    | ⟨0, _⟩ => exact lhsA_0 _ _
    | ⟨1, _⟩ => exact (lhsA_1 _ _).trans hk)
  have er : dot_S256x1024_S1024x4096_S256x4096_1_0_0_1_n_n.rhsIdx (ix2 r c) ((contrEquiv1 dot_S256x1024_S1024x4096_S256x4096_1_0_0_1_n_n 1024 rfl rfl).symm k) = ix2 k c := funext fun x => Fin.ext (by
    match x with
    | ⟨0, _⟩ => exact (rhsA_0 _ _).trans hk
    | ⟨1, _⟩ => exact rhsA_1 _ _)
  rw [el, er]

/-- The second product into a zero accumulator at (r, j): the sum over f < 4096 of a[r, f] · b[f, j]. -/
theorem out_apply {φ₁ φ₂ : FTy} (a : FVec Ideal S256x4096 φ₁) (b : FVec Ideal S4096x1024 φ₂) (r : Fin 256) (c : Fin 1024) :
    matmul dot_S256x4096_S4096x1024_S256x1024_1_0_0_1_n_n none a b (constant (F := Ideal) S256x1024 .f32 0x00000000#32) (ix2 r c) = ∑ k : Fin 4096, a (ix2 r k) * b (ix2 k c) := by
  simp only [matmul]
  rw [Ideal.matmul_constant_zero_apply, ← Equiv.sum_comp (contrEquiv1 dot_S256x4096_S4096x1024_S256x1024_1_0_0_1_n_n 4096 rfl rfl).symm]
  refine Finset.sum_congr rfl fun k _ => ?_
  have hk := contrEquiv1_symm_val dot_S256x4096_S4096x1024_S256x1024_1_0_0_1_n_n 4096 rfl rfl k
  have el : dot_S256x4096_S4096x1024_S256x1024_1_0_0_1_n_n.lhsIdx (ix2 r c) ((contrEquiv1 dot_S256x4096_S4096x1024_S256x1024_1_0_0_1_n_n 4096 rfl rfl).symm k) = ix2 r k := funext fun x => Fin.ext (by
    match x with
    | ⟨0, _⟩ => exact lhsB_0 _ _
    | ⟨1, _⟩ => exact (lhsB_1 _ _).trans hk)
  have er : dot_S256x4096_S4096x1024_S256x1024_1_0_0_1_n_n.rhsIdx (ix2 r c) ((contrEquiv1 dot_S256x4096_S4096x1024_S256x1024_1_0_0_1_n_n 4096 rfl rfl).symm k) = ix2 k c := funext fun x => Fin.ext (by
    match x with
    | ⟨0, _⟩ => exact (rhsB_0 _ _).trans hk
    | ⟨1, _⟩ => exact rhsB_1 _ _)
  rw [el, er]

/-! ## Dropping and restoring the unit axis -/

/-- (0, a, b) written with `Fin.cons` is `ix3 0 a b`. -/
theorem cons_ix2 {n0 n1 : Nat} (a : Fin n0) (b : Fin n1) :
    (Fin.cons (⟨0, Nat.one_pos⟩ : Fin 1) (ix2 a b) : (⟨3, ![1, n0, n1]⟩ : Shape).Idx) = ix3 (0 : Fin 1) a b :=
  funext fun x => by match x with | ⟨0, _⟩ => rfl | ⟨1, _⟩ => rfl | ⟨2, _⟩ => rfl

/-- A [1, a, b] block viewed [a, b] reads (0, r, c) at (r, c). -/
theorem drop_apply {α : Type} {n0 n1 : Nat} (v : (⟨3, ![1, n0, n1]⟩ : Shape).Idx → α)
    (h : (⟨3, ![1, n0, n1]⟩ : Shape).ShapeCasts ⟨2, ![n0, n1]⟩) (r : Fin n0) (c : Fin n1) :
    shapeCast ⟨2, ![n0, n1]⟩ v h (ix2 r c) = v (ix3 0 r c) := by
  rw [← cons_ix2]
  exact shapeCast_dropUnit_apply ![n0, n1] v h (ix2 r c)

/-- An [a, b] value stored as a [1, a, b] block reads (r, c) at (z, r, c). -/
theorem add_apply {α : Type} {n0 n1 : Nat} (v : (⟨2, ![n0, n1]⟩ : Shape).Idx → α)
    (h : (⟨2, ![n0, n1]⟩ : Shape).ShapeCasts ⟨3, ![1, n0, n1]⟩) (z : Fin 1) (r : Fin n0) (c : Fin n1) :
    shapeCast ⟨3, ![1, n0, n1]⟩ v h (ix3 z r c) = v (ix2 r c) := by
  rw [shapeCast_addUnit_apply ![n0, n1] v h (ix3 z r c)]
  exact congrArg v (funext fun x => by match x with | ⟨0, _⟩ => rfl | ⟨1, _⟩ => rfl)

/-! ## The activation between the products -/

/-- The body's pointwise operations on the first product `h`, as one vector: the activation, then the change of
    float format. -/
def actv (h : FVec Ideal S256x4096 .f32) : FVec Ideal S256x4096 .bf16 :=
  truncf .bf16
    (mulf (mulf (broadcast S256x4096 (Scalar.ofBits (F := Ideal) .f32 0x3F000000#32)) h)
      (addf (broadcast S256x4096 (Scalar.ofBits (F := Ideal) .f32 0x3F800000#32))
        (tanh (mulf (broadcast S256x4096 (Scalar.ofBits (F := Ideal) .f32 0x3F4C422A#32))
          (addf h (mulf (mulf (mulf (broadcast S256x4096 (Scalar.ofBits (F := Ideal) .f32 0x3D372713#32)) h) h) h))))))
    bitsLt_bf16_f32

/-- Entry by entry it is `act`. -/
theorem actv_apply (h : FVec Ideal S256x4096 .f32) (i : S256x4096.Idx) : actv h i = act (h i) := rfl

/-- The body's stored value is the second product of the activated first product, with the unit axes dropped and restored. -/
theorem pay_struct (xb : Vec Ideal S1x256x1024 .bf16) (w1b : Vec Ideal S1x1024x4096 .bf16) (w2b : Vec Ideal S1x4096x1024 .bf16) :
    k0_pay1 (F := Ideal) xb w1b w2b
      = shapeCast S1x256x1024
          (matmul (φ₁ := .bf16) (φ₂ := .bf16) dot_S256x4096_S4096x1024_S256x1024_1_0_0_1_n_n none
            (actv (matmul (φ₁ := .bf16) (φ₂ := .bf16) dot_S256x1024_S1024x4096_S256x4096_1_0_0_1_n_n none
              (shapeCast S256x1024 xb shapeCasts_S1x256x1024_S256x1024 : FVec Ideal S256x1024 .bf16)
              (shapeCast S1024x4096 w1b shapeCasts_S1x1024x4096_S1024x4096 : FVec Ideal S1024x4096 .bf16)
              (constant (F := Ideal) S256x4096 .f32 0x00000000#32)))
            (shapeCast S4096x1024 w2b shapeCasts_S1x4096x1024_S4096x1024 : FVec Ideal S4096x1024 .bf16)
            (constant (F := Ideal) S256x1024 .f32 0x00000000#32))
          shapeCasts_S256x1024_S1x256x1024 := rfl

/-- THE STORED VALUE AT (z, r, j): the double sum over the three loaded blocks. -/
theorem pay_apply (xb : Vec Ideal S1x256x1024 .bf16) (w1b : Vec Ideal S1x1024x4096 .bf16) (w2b : Vec Ideal S1x4096x1024 .bf16)
    (z : Fin 1) (r : Fin 256) (j : Fin 1024) :
    k0_pay1 (F := Ideal) xb w1b w2b (ix3 z r j)
      = ∑ f : Fin 4096, act (∑ k : Fin 1024, xb (ix3 0 r k) * w1b (ix3 0 k f)) * w2b (ix3 0 f j) := by
  rw [pay_struct, add_apply, out_apply]
  refine Finset.sum_congr rfl fun f _ => ?_
  rw [actv_apply, hidden_apply, drop_apply]
  refine congrArg (fun s => act s * _) (Finset.sum_congr rfl fun k _ => ?_)
  rw [drop_apply, drop_apply]

end Cert.KernelIdeal.Payload

end
-- ==== Proof.Blocks.lean ====
/-
  From the blocks to the whole output array.

  The grid has 8 × 8 points; point t = 8·e + s handles batch index e and the 256 rows s·256 … s·256 + 255.  There the
  pipeline has staged rows s·256 … of x[e] (a [1, 256, 1024] block) and the whole of w1[e] and w2[e]; the arrays it
  stages from are the arguments after a change of float format, which is the identity on the extended reals.  The body
  leaves in the output block, at (0, r, j), the double sum of the payload lemma over those three blocks, and that is
  `mlp` of the arguments at (e, s·256 + r, j): the block written back at point t is block t of `mlp`.  The 64 blocks
  tile the [8, 2048, 1024] output, the index (e, u, j) lying in the block of point 8·e + u / 256, so the output array
  ends as `mlp` of the arguments.
-/
import proofs.«167670_j45002667327743_1_alg».proof.Proof.Gen.KernelIdeal.Value
import proofs.«167670_j45002667327743_1_alg».proof.Proof.Payload
import Idealize.ShloMosaic.Lib.StableHlo.Run

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Cert.MlpSpec Cert.KernelIdeal.Payload
open Idealize.ShloMosaic.Pipeline (Dat)

variable (m : (ℓ : Loc nD τ sig) → Buf (Elt Ideal) ℓ) (ρ : Dev nD → PrngReg)

/-! ## The arguments, and the staged arrays the region finds -/

/-- The three arguments as launched on core `c`. -/
abbrev argX (c : Dev nD) : SX.Idx → EReal := m ((c : Thread nD τ).loc main_arg0)
abbrev argW1 (c : Dev nD) : SW1.Idx → EReal := m ((c : Thread nD τ).loc main_arg1)
abbrev argW2 (c : Dev nD) : SW2.Idx → EReal := m ((c : Thread nD τ).loc main_arg2)

/-- The array window 0 stages from is x after a change of float format: x itself. -/
theorem staged_x (c : Dev nD) : (V m c main_call0_v0 : SX.Idx → EReal) = argX m c := by
  dsimp only [V, hostOps0]; after_results; rfl
/-- Window 1's is w1 itself. -/
theorem staged_w1 (c : Dev nD) : (V m c main_call0_v1 : SW1.Idx → EReal) = argW1 m c := by
  dsimp only [V, hostOps0]; after_results; rfl
/-- Window 2's is w2 itself. -/
theorem staged_w2 (c : Dev nD) : (V m c main_call0_v2 : SW2.Idx → EReal) = argW2 m c := by
  dsimp only [V, hostOps0]; after_results; rfl

/-! ## The index maps over the grid -/

theorem zero3 : (![0, 0, 0] : Fin 3 → Nat) = fun _ => 0 := funext fun a => by fin_cases a <;> rfl

/-- Point t = 8·e + s: the x and output blocks sit at block index (e, s, 0), the two weight blocks at (e, 0, 0). -/
theorem idx_facts : ∀ t : Fin cfg0.N,
    win0_3.index t (0 : Fin 3) = t.val / 8 ∧ win0_3.index t (1 : Fin 3) = t.val % 8 ∧ win0_3.index t (2 : Fin 3) = 0
    ∧ win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = 0 :=
  (by decide +kernel : ∀ t : Fin grid0.N, _)

/-! ## The staged blocks read back to the arguments -/

/-- The x block at point t, at (0, r, k), is x at (t / 8, (t % 8)·256 + r, k). -/
theorem xblk_read (c : Dev nD) (t : Fin cfg0.N) (r : Fin 256) (k : Fin 1024) (i : SX.Idx)
    (h0 : (i 0).val = t.val / 8) (h1 : (i 1).val = t.val % 8 * 256 + r.val) :
    iblk m c 0 t (ix3 0 r k) = argX m c (ix3 (i 0) (i 1) k) := by
  obtain ⟨-, -, -, e0, e1, e2, -⟩ := idx_facts t
  show V m c main_call0_v0 (((cfg0.win 0).blk t).view.emb (ix3 0 r k)) = _
  refine (congrFun (staged_x m c) _).trans (congrArg (argX m c) (funext fun a => Fin.ext ?_))
  match a with
  | ⟨0, _⟩ => show win0_0.index t (0 : Fin 3) * 1 + 1 * 0 = (i 0).val; omega
  | ⟨1, _⟩ => show win0_0.index t (1 : Fin 3) * 256 + 1 * r.val = (i 1).val; omega
  | ⟨2, _⟩ => show win0_0.index t (2 : Fin 3) * 1024 + 1 * k.val = k.val; omega

/-- The w1 block at point t, at (0, k, f), is w1 at (t / 8, k, f). -/
theorem w1blk_read (c : Dev nD) (t : Fin cfg0.N) (k : Fin 1024) (f : Fin 4096) (e : Fin 8) (h0 : e.val = t.val / 8) :
    iblk m c 1 t (ix3 0 k f) = argW1 m c (ix3 e k f) := by
  obtain ⟨-, -, -, -, -, -, e0, e1, e2, -⟩ := idx_facts t
  show V m c main_call0_v1 (((cfg0.win 1).blk t).view.emb (ix3 0 k f)) = _
  refine (congrFun (staged_w1 m c) _).trans (congrArg (argW1 m c) (funext fun a => Fin.ext ?_))
  match a with
  | ⟨0, _⟩ => show win0_1.index t (0 : Fin 3) * 1 + 1 * 0 = e.val; omega
  | ⟨1, _⟩ => show win0_1.index t (1 : Fin 3) * 1024 + 1 * k.val = k.val; omega
  | ⟨2, _⟩ => show win0_1.index t (2 : Fin 3) * 4096 + 1 * f.val = f.val; omega

/-- The w2 block at point t, at (0, f, j), is w2 at (t / 8, f, j). -/
theorem w2blk_read (c : Dev nD) (t : Fin cfg0.N) (f : Fin 4096) (j : Fin 1024) (e : Fin 8) (h0 : e.val = t.val / 8) :
    iblk m c 2 t (ix3 0 f j) = argW2 m c (ix3 e f j) := by
  obtain ⟨-, -, -, -, -, -, -, -, -, e0, e1, e2⟩ := idx_facts t
  show V m c main_call0_v2 (((cfg0.win 2).blk t).view.emb (ix3 0 f j)) = _
  refine (congrFun (staged_w2 m c) _).trans (congrArg (argW2 m c) (funext fun a => Fin.ext ?_))
  match a with
  | ⟨0, _⟩ => show win0_2.index t (0 : Fin 3) * 1 + 1 * 0 = e.val; omega
  | ⟨1, _⟩ => show win0_2.index t (1 : Fin 3) * 4096 + 1 * f.val = f.val; omega
  | ⟨2, _⟩ => show win0_2.index t (2 : Fin 3) * 1024 + 1 * j.val = j.val; omega

/-! ## What a point writes back -/

/-- THE BLOCK'S VALUE: for an output index i = (t / 8, (t % 8)·256 + r, j), the body's stored value at (z, r, j), over
    the three blocks staged at point t, is `mlp` of the arguments at i — the double sum of the payload lemma with each
    block entry read back to the argument it was staged from. -/
theorem block_value (c : Dev nD) (t : Fin cfg0.N) (z : Fin 1) (r : Fin 256) (j : Fin 1024) (i : SX.Idx)
    (h0 : (i 0).val = t.val / 8) (h1 : (i 1).val = t.val % 8 * 256 + r.val) (h2 : (i 2).val = j.val) :
    k0_pay1 (F := Ideal) (iblk m c 0 t) (iblk m c 1 t) (iblk m c 2 t) (ix3 z r j) = mlp (argX m c) (argW1 m c) (argW2 m c) i := by
  refine (pay_apply (iblk m c 0 t) (iblk m c 1 t) (iblk m c 2 t) z r j).trans ?_
  have hj : i 2 = j := Fin.ext h2
  change _ = ∑ f : Fin 4096, act (∑ k : Fin 1024, argX m c (ix3 (i 0) (i 1) k) * argW1 m c (ix3 (i 0) k f)) * argW2 m c (ix3 (i 0) f (i 2))
  rw [hj]
  refine Finset.sum_congr rfl fun f _ => ?_
  rw [w2blk_read m c t f j (i 0) h0]
  refine congrArg (fun s => act s * _) (Finset.sum_congr rfl fun k _ => ?_)
  rw [xblk_read m c t r k i h0 h1, w1blk_read m c t k f (i 0) h0]

/-- WHAT POINT t WRITES BACK is block t of `mlp` of the arguments. -/
theorem flushed_eq (c : Dev nD) (t : Fin cfg0.N) :
    (dats m 0 c).flushed 3 t = ((cfg0.win 3).blk t).view.read (Elt Ideal) (mlp (argX m c) (argW1 m c) (argW2 m c)) := by
  rw [Value.flushed3]
  unfold out0_3
  rw [View.canon_unit_zero zero3]
  simp only [View.ld_unit_zero (S := S1x256x1024) zero3, View.ld_unit_zero (S := S1x1024x4096) zero3, View.ld_unit_zero (S := S1x4096x1024) zero3]
  funext y
  obtain ⟨z, r, j, rfl⟩ : ∃ (z : Fin 1) (r : Fin 256) (j : Fin 1024), y = ix3 z r j := ⟨y 0, y 1, y 2, eq_ix3 y⟩
  obtain ⟨e0, e1, e2, -⟩ := idx_facts t
  have hz : z.val = 0 := by have := z.isLt; omega
  show k0_pay1 (F := Ideal) (iblk m c 0 t) (iblk m c 1 t) (iblk m c 2 t) (ix3 z r j)
    = mlp (argX m c) (argW1 m c) (argW2 m c) (((cfg0.win 3).blk t).view.emb (ix3 z r j))
  refine block_value m c t z r j _ ?_ ?_ ?_
  · show win0_3.index t (0 : Fin 3) * 1 + 1 * z.val = t.val / 8; omega
  · show win0_3.index t (1 : Fin 3) * 256 + 1 * r.val = t.val % 8 * 256 + r.val; omega
  · show win0_3.index t (2 : Fin 3) * 1024 + 1 * j.val = j.val; omega

/-! ## The blocks tile the output -/

/-- An index of the output is in point t's block iff each coordinate is in the block's range on its axis. -/
theorem mem_blk (t : Fin cfg0.N) (i : S8x2048x1024.Idx) :
    i ∈ ((cfg0.win 3).blk t).view.set ↔ ∀ a : Fin 3, win0_3.index t a * S1x256x1024.size a ≤ (i a).val ∧ (i a).val < win0_3.index t a * S1x256x1024.size a + S1x256x1024.size a := by
  show i ∈ ((View.whole main_v0).slice (win0_3.rect t)).set ↔ _
  rw [View.set_slice_whole, Rect.mem_set_unit]
  exact Iff.rfl

/-- Every index (e, u, j) of the output is in the block of point 8·e + u / 256. -/
theorem cover (i : S8x2048x1024.Idx) : ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 1024 := (i 2).isLt
  have hN : (i 0).val * 8 + (i 1).val / 256 < cfg0.N := by rw [show cfg0.N = 64 from N_0]; omega
  refine ⟨⟨(i 0).val * 8 + (i 1).val / 256, hN⟩, flush0_3 _, ?_⟩
  rw [mem_blk]
  obtain ⟨e0, e1, e2, -⟩ := idx_facts ⟨(i 0).val * 8 + (i 1).val / 256, hN⟩
  intro a
  match a with
  | ⟨0, _⟩ =>
    show win0_3.index _ (0 : Fin 3) * 1 ≤ (i 0).val ∧ (i 0).val < win0_3.index _ (0 : Fin 3) * 1 + 1
    rw [e0]; dsimp only; omega
  | ⟨1, _⟩ =>
    show win0_3.index _ (1 : Fin 3) * 256 ≤ (i 1).val ∧ (i 1).val < win0_3.index _ (1 : Fin 3) * 256 + 256
    rw [e1]; dsimp only; omega
  | ⟨2, _⟩ =>
    show win0_3.index _ (2 : Fin 3) * 1024 ≤ (i 2).val ∧ (i 2).val < win0_3.index _ (2 : Fin 3) * 1024 + 1024
    rw [e2]; omega

/-! ## The output array after the run -/

/-- The output array ends as `mlp` of the arguments. -/
theorem final (c : Dev nD) : (dats m 0 c).arrAt 3 cfg0.N = mlp (argX m c) (argW1 m c) (argW2 m c) :=
  (dats m 0 c).arrAt_eq_of_cover 3 _ (fun t _ => flushed_eq m c t) cover

/-- The kernel's run: every weakly fair execution ends with the result array at `mlp` of the arguments and the
    arguments unchanged. -/
theorem run : θ_run defs (onTc (τ := τ) (main (F := Ideal))) ⟨m, fun _ => 0, ρ⟩ fun r => ∀ c : Dev nD,
      r.2.mem ((c : Thread nD τ).loc main_v0) = mlp (argX m c) (argW1 m c) (argW2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Blocks

end
-- ==== Proof.lean ====
/-
  A fused two-layer perceptron per batch index against two batched einsums.

  Arguments x : [8, 2048, 1024], w1 : [8, 1024, 4096], w2 : [8, 4096, 1024].  The kernel runs on an 8 × 8 grid: at
  point (e, s) it holds rows s·256 … s·256 + 255 of x[e] and all of w1[e], w2[e]; it multiplies the row block by w1[e],
  applies the tanh form of GELU entry by entry, multiplies by w2[e], and writes the [256, 1024] result to rows
  s·256 … of out[e].  The reference computes h = einsum(x, w1) over the whole arrays, the same activation, and
  einsum(act h, w2).

  On the extended reals, where a change of float format is the identity and a matrix product into a zero accumulator is
  the plain sum over the contraction coordinate, both are the function `MlpSpec.mlp`:

    out[e, t, j] = Σ_f act (Σ_k x[e, t, k] · w1[e, k, f]) · w2[e, f, j],

  the kernel block by block (Proof/Payload.lean: the body's stored value at an index; Proof/Blocks.lean: each staged
  block read back to the argument it came from, and the 64 blocks tiling the output) and the reference operation by
  operation (Proof/RefValue.lean).  The activation's four scalars are the same binary32 words on both sides and every sum
  is taken over the same index set in the same arrangement, so no algebraic law and no finiteness of the inputs is used:
  the precondition is never opened.  The idealization rewrote no operation, so `preserves` is `True`.
-/
import proofs.«167670_j45002667327743_1_alg».proof.Defs
import proofs.«167670_j45002667327743_1_alg».proof.Proof.Gen.Kernel
import proofs.«167670_j45002667327743_1_alg».proof.Proof.Gen.Kernel.Skeleton
import proofs.«167670_j45002667327743_1_alg».proof.Proof.Gen.Kernel.Launch
import proofs.«167670_j45002667327743_1_alg».proof.Proof.Gen.Kernel.Points
import proofs.«167670_j45002667327743_1_alg».proof.Proof.Gen.Kernel.Frame
import proofs.«167670_j45002667327743_1_alg».proof.Proof.Gen.KernelIdeal
import proofs.«167670_j45002667327743_1_alg».proof.Proof.Gen.KernelIdeal.Skeleton
import proofs.«167670_j45002667327743_1_alg».proof.Proof.Gen.KernelIdeal.Launch
import proofs.«167670_j45002667327743_1_alg».proof.Proof.Gen.KernelIdeal.Points
import proofs.«167670_j45002667327743_1_alg».proof.Proof.Gen.KernelIdeal.Frame
import proofs.«167670_j45002667327743_1_alg».proof.Proof.Gen.ReferenceIdeal
import proofs.«167670_j45002667327743_1_alg».proof.Proof.Gen.Pre_finite_inputs
import proofs.«167670_j45002667327743_1_alg».proof.Proof.Gen.KernelIdeal.Value
import proofs.«167670_j45002667327743_1_alg».proof.Proof.Gen.ReferenceIdeal.Run
import proofs.«167670_j45002667327743_1_alg».proof.Proof.Gen.ReferenceIdeal.Read
import proofs.«167670_j45002667327743_1_alg».proof.Proof.Spec
import proofs.«167670_j45002667327743_1_alg».proof.Proof.RefValue
import proofs.«167670_j45002667327743_1_alg».proof.Proof.Payload
import proofs.«167670_j45002667327743_1_alg».proof.Proof.Blocks
import Idealize.ShloMosaic.Adequacy
import Idealize.ShloMosaic.Init

noncomputable section

namespace Cert.Proof

open Idealize.ShloMosaic Idealize.ShloMosaic.TcCoe Idealize.SL.Sem

/-- The kernel as printed runs and leaves its arguments: its generated frame. -/
theorem frame_k : Cert.frame_Kernel := fun m ρ _ => Cert.Kernel.Gen.frame m ρ

/-- The idealized kernel likewise. -/
theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- Both programs end with the result at `mlp` of the arguments: the kernel by its blocks, the reference by its
    operations, from arguments that agree. -/
theorem algebraic : Cert.algebraic_KernelIdeal_ReferenceIdeal := by
  intro m ρ m' ρ' _ hagree
  refine ⟨fun c => Cert.MlpSpec.mlp (Cert.KernelIdeal.Blocks.argX m c) (Cert.KernelIdeal.Blocks.argW1 m c) (Cert.KernelIdeal.Blocks.argW2 m c),
    Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
